-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S768x16x16 : Shape := ⟨3, ![768, 16, 16]⟩
abbrev S1x16x16 : Shape := ⟨3, ![1, 16, 16]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S768x16x16 : S_.BroadcastsInDim S768x16x16 (![] : Fin 0 → Fin S768x16x16.rank)
  reducesTo_S768x16x16_S_d0_1_2 : S768x16x16.ReducesTo [0, 1, 2] S_
  bcast_S_S1x16x16 : S_.BroadcastsInDim S1x16x16 (![] : Fin 0 → Fin S1x16x16.rank)
  reducesTo_S1x16x16_S_d0_1_2 : S1x16x16.ReducesTo [0, 1, 2] S_

variable [Facts]

def fn {F : FTy → Type} [FloatOps F] (main_arg0 : FVec F S65536x768 .f32) (main_arg1 : FVec F S768x16x16 .f32) (main_arg2 : FVec F S1x16x16 .f32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S768x16x16 .f32 := Host.absf main_arg1
  let main_cst_0 : FVec F S_ .f32 := constant S_ .f32 0x7F800000#32
  let main_v5 : FVec F S768x16x16 .f32 := broadcastInDim S768x16x16 ![] bcast_S_S768x16x16 main_cst_0
  let main_v6 : IVec S768x16x16 1 := cmpf .olt main_v4 main_v5
  let main_c_1 : IVec S_ 1 := constantI S_ 1 1#1
  let main_v7 : IVec S_ 1 := (fun x v => Host.reduce IntOp.andi x v reducesTo_S768x16x16_S_d0_1_2 h_S_) main_v6 main_c_1
  let main_v8 : IVec S_ 1 := andi main_v3 main_v7
  let main_v9 : FVec F S1x16x16 .f32 := Host.absf main_arg2
  let main_cst_2 : FVec F S_ .f32 := constant S_ .f32 0x7F800000#32
  let main_v10 : FVec F S1x16x16 .f32 := broadcastInDim S1x16x16 ![] bcast_S_S1x16x16 main_cst_2
  let main_v11 : IVec S1x16x16 1 := cmpf .olt main_v9 main_v10
  let main_c_3 : IVec S_ 1 := constantI S_ 1 1#1
  let main_v12 : IVec S_ 1 := (fun x v => Host.reduce IntOp.andi x v reducesTo_S1x16x16_S_d0_1_2 h_S_) main_v11 main_c_3
  let main_v13 : IVec S_ 1 := andi main_v8 main_v12
  main_v13
-- ==== Kernel.lean ====
abbrev S65536x768 : Shape := ⟨2, ![65536, 768]⟩
abbrev S768x16x16 : Shape := ⟨3, ![768, 16, 16]⟩
abbrev S1x16x16 : Shape := ⟨3, ![1, 16, 16]⟩
abbrev S768x256 : Shape := ⟨2, ![768, 256]⟩
abbrev S65536x16x16 : Shape := ⟨3, ![65536, 16, 16]⟩
abbrev S512x768 : Shape := ⟨2, ![512, 768]⟩
abbrev S512x16x16 : Shape := ⟨3, ![512, 16, 16]⟩
abbrev S512x256 : Shape := ⟨2, ![512, 256]⟩
abbrev S16x16 : Shape := ⟨2, ![16, 16]⟩

abbrev nBuf : Space → Nat
  | .hbm => 5
  | .vmem => 6
  | .smem => 0
  | _ => 0

abbrev bufTy : (tb : Table) → Fin (tcTables nBuf tb) → BufTy
  | .hbm, ⟨0, _⟩ => ⟨S65536x768, .f32⟩
  | .hbm, ⟨1, _⟩ => ⟨S768x16x16, .f32⟩
  | .hbm, ⟨2, _⟩ => ⟨S1x16x16, .f32⟩
  | .hbm, ⟨3, _⟩ => ⟨S768x256, .f32⟩
  | .hbm, ⟨4, _⟩ => ⟨S65536x16x16, .f32⟩
  | .local _ .vmem, ⟨0, _⟩ => ⟨S512x768, .f32⟩
  | .local _ .vmem, ⟨1, _⟩ => ⟨S512x768, .f32⟩
  | .local _ .vmem, ⟨2, _⟩ => ⟨S768x256, .f32⟩
  | .local _ .vmem, ⟨3, _⟩ => ⟨S1x16x16, .f32⟩
  | .local _ .vmem, ⟨4, _⟩ => ⟨S512x16x16, .f32⟩
  | .local _ .vmem, ⟨5, _⟩ => ⟨S512x16x16, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S768x16x16_S768x256 : S768x16x16.ShapeCasts S768x256
  inb_S512x768_S512x768_0_0 : ∀ a, (![0, 0] : Fin 2 → Nat) a + S512x768.size a ≤ S512x768.size a
  h_S512x768 : 0 < S512x768.numel
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  shapeCasts_S768x256_S768x256 : S768x256.ShapeCasts S768x256
  shapeCasts_S512x256_S512x16x16 : S512x256.ShapeCasts S512x16x16
  inb_S1x16x16_S1x16x16_0_0_0 : ∀ a, (![0, 0, 0] : Fin 3 → Nat) a + S1x16x16.size a ≤ S1x16x16.size a
  h_S1x16x16 : 0 < S1x16x16.numel
  broadcasts_S1x16x16_S512x16x16 : S1x16x16.Broadcasts S512x16x16
  iota_S16x16_d0_w32 : S16x16.Iotas .tc 32 [0]
  iota_S16x16_d1_w32 : S16x16.Iotas .tc 32 [1]
  shapeCasts_S16x16_S1x16x16 : S16x16.ShapeCasts S1x16x16
  inb_S512x16x16_S512x16x16_0_0_0 : ∀ a, (![0, 0, 0] : Fin 3 → Nat) a + S512x16x16.size a ≤ S512x16x16.size a
  h_S512x16x16 : 0 < S512x16x16.numel
  dot_S512x768_S768x256_S512x256_1_0_0_1_n_n_wf : DotDims.WF S512x768 S768x256 S512x256 [1] [0] [0] [1] [] []
  dot_S512x16x16_S512x16x16_S512x16x16_2_1_1_2_0_0_wf : DotDims.WF S512x16x16 S512x16x16 S512x16x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S65536x768.size a
  hwx0_0 : ∀ i : grid0.Coords, EltTy.bits .f32 = 32 ∨ (Rect.block (s := S65536x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16x16.size a ≤ S1x16x16.size a
  hwx0_2 : ∀ i : grid0.Coords, EltTy.bits .f32 = 32 ∨ (Rect.block (s := S1x16x16) S1x16x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16x16.size a ≤ S65536x16x16.size a
  hwx0_3 : ∀ i : grid0.Coords, EltTy.bits .f32 = 32 ∨ (Rect.block (s := S65536x16x16) S512x16x16.size (cc0_transform_3 i) (hinb0_3 i)).WholeWords (EltTy.packing .f32)

variable [Facts₀]

def dot_S512x768_S768x256_S512x256_1_0_0_1_n_n : DotDims S512x768 S768x256 S512x256 where
  lhsContracting := [1]
  rhsContracting := [0]
  lhsNonContracting := [0]
  rhsNonContracting := [1]
  lhsBatch := []
  rhsBatch := []
  wf := dot_S512x768_S768x256_S512x256_1_0_0_1_n_n_wf
def dot_S512x16x16_S512x16x16_S512x16x16_2_1_1_2_0_0 : DotDims S512x16x16 S512x16x16 S512x16x16 where
  lhsContracting := [2]
  rhsContracting := [1]
  lhsNonContracting := [1]
  rhsNonContracting := [2]
  lhsBatch := [0]
  rhsBatch := [0]
  wf := dot_S512x16x16_S512x16x16_S512x16x16_2_1_1_2_0_0_wf

abbrev win0_0 : Pipeline.Window sig grid0 :=
  Pipeline.Window.ofSpec (Memref.whole main_arg0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x16x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x768 : Shape := ⟨2, ![65536, 768]⟩
abbrev S768x16x16 : Shape := ⟨3, ![768, 16, 16]⟩
abbrev S1x16x16 : Shape := ⟨3, ![1, 16, 16]⟩
abbrev S768x256 : Shape := ⟨2, ![768, 256]⟩
abbrev S65536x256 : Shape := ⟨2, ![65536, 256]⟩
abbrev S65536x16x16 : Shape := ⟨3, ![65536, 16, 16]⟩
abbrev S_ : Shape := ⟨0, ![]⟩
abbrev S16x16 : Shape := ⟨2, ![16, 16]⟩

abbrev nBuf : Space → Nat
  | .hbm => 25
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S768x16x16, .f32⟩
  | .hbm, ⟨2, _⟩ => ⟨S1x16x16, .f32⟩
  | .hbm, ⟨3, _⟩ => ⟨S768x256, .f32⟩
  | .hbm, ⟨4, _⟩ => ⟨S65536x256, .f32⟩
  | .hbm, ⟨5, _⟩ => ⟨S65536x16x16, .f32⟩
  | .hbm, ⟨6, _⟩ => ⟨S65536x16x16, .f32⟩
  | .hbm, ⟨7, _⟩ => ⟨S65536x16x16, .f32⟩
  | .hbm, ⟨8, _⟩ => ⟨S_, .f32⟩
  | .hbm, ⟨9, _⟩ => ⟨S65536x16x16, .f32⟩
  | .hbm, ⟨10, _⟩ => ⟨S65536x16x16, .f32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S16x16, .f32⟩
  | .hbm, ⟨18, _⟩ => ⟨S1x16x16, .f32⟩
  | .hbm, ⟨19, _⟩ => ⟨S65536x16x16, .f32⟩
  | .hbm, ⟨20, _⟩ => ⟨S65536x16x16, .f32⟩
  | .hbm, ⟨21, _⟩ => ⟨S65536x16x16, .f32⟩
  | .hbm, ⟨22, _⟩ => ⟨S65536x16x16, .f32⟩
  | .hbm, ⟨23, _⟩ => ⟨S65536x16x16, .f32⟩
  | .hbm, ⟨24, _⟩ => ⟨S65536x16x16, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  shapeCasts_S768x16x16_S768x256 : S768x16x16.ShapeCasts S768x256
  shapeCasts_S65536x256_S65536x16x16 : S65536x256.ShapeCasts S65536x16x16
  bcast_S1x16x16_S65536x16x16_0_1_2 : S1x16x16.BroadcastsInDim S65536x16x16 (![0, 1, 2] : Fin 3 → Fin S65536x16x16.rank)
  bcast_S_S65536x16x16 : S_.BroadcastsInDim S65536x16x16 (![] : Fin 0 → Fin S65536x16x16.rank)
  bcast_S_S16x16 : S_.BroadcastsInDim S16x16 (![] : Fin 0 → Fin S16x16.rank)
  bcast_S16x16_S1x16x16_1_2 : S16x16.BroadcastsInDim S1x16x16 (![1, 2] : Fin 2 → Fin S1x16x16.rank)
  dot_S65536x768_S768x256_S65536x256_1_0_0_1_n_n_wf : DotDims.WF S65536x768 S768x256 S65536x256 [1] [0] [0] [1] [] []
  dot_S65536x16x16_S65536x16x16_S65536x16x16_2_1_1_2_0_0_wf : DotDims.WF S65536x16x16 S65536x16x16 S65536x16x16 [2] [1] [1] [2] [0] [0]

variable [Facts₀]

def dot_S65536x768_S768x256_S65536x256_1_0_0_1_n_n : DotDims S65536x768 S768x256 S65536x256 where
  lhsContracting := [1]
  rhsContracting := [0]
  lhsNonContracting := [0]
  rhsNonContracting := [1]
  lhsBatch := []
  rhsBatch := []
  wf := dot_S65536x768_S768x256_S65536x256_1_0_0_1_n_n_wf
def dot_S65536x16x16_S65536x16x16_S65536x16x16_2_1_1_2_0_0 : DotDims S65536x16x16 S65536x16x16 S65536x16x16 where
  lhsContracting := [2]
  rhsContracting := [1]
  lhsNonContracting := [1]
  rhsNonContracting := [2]
  lhsBatch := [0]
  rhsBatch := [0]
  wf := dot_S65536x16x16_S65536x16x16_S65536x16x16_2_1_1_2_0_0_wf

class Facts : Prop extends Facts₀ where

variable [Facts]
-- ==== Proof.Spec.lean ====
/-
  The function both programs compute, one row of the batch at a time.

  A row `xr` of 768 numbers is multiplied into the flattened weights `wf` (768 × 256; column `16·i + j` holds
  entry `(i, j)` of a 16 × 16 matrix), the bias matrix `b` is added, the sum is multiplied by the scale `s` (both
  programs carry it as the same f32 word, so its value is never needed) and the identity matrix is added:

      A₀ = (xr · wf + b) · s + I.

  The result is `A₀` squared four times, A₀ ↦ A₀², that is the sixteenth power of `A₀`.

  Everything is a finite sum or product of extended reals taken in the same order on both sides up to the order
  of summation inside one sum, which a sum over a finite index set does not see.  So no law that fails at the
  infinities (distributivity, cancellation) is used and the entries need not be finite.
-/
import Idealize.ShloMosaic.PureOps.Ideal
import Idealize.ShloMosaic.Lib.ValueIdx

noncomputable section

open scoped BigOperators

namespace Cert.MatPow

open Idealize.ShloMosaic Idealize.ShloMosaic.ValueIdx

/-- The column of the flattened weights that holds entry `(i, j)` of the 16 × 16 matrix. -/
def col (i j : Fin 16) : Fin 256 := ⟨i.val * 16 + j.val, by have := i.isLt; have := j.isLt; omega⟩

/-- The identity matrix. -/
def eye (i j : Fin 16) : EReal := if i = j then 1 else 0

/-- The scale, as the f32 word both programs write. -/
def scale : EReal := Ideal.ofBits .f32 0x3D800000#32

/-- The matrix a row starts from: `(xr · wf + b) · scale + I`. -/
def start (xr : Fin 768 → EReal) (wf : (⟨2, ![768, 256]⟩ : Shape).Idx → EReal)
    (b : (⟨3, ![1, 16, 16]⟩ : Shape).Idx → EReal) (i j : Fin 16) : EReal :=
  ((∑ k : Fin 768, xr k * wf (ix2 k (col i j))) + b (ix3 (0 : Fin 1) i j)) * scale + eye i j

/-- The square of a 16 × 16 matrix. -/
def msq (M : Fin 16 → Fin 16 → EReal) (i j : Fin 16) : EReal := ∑ k : Fin 16, M i k * M k j

/-- A row's result: the start matrix squared four times. -/
def rowMat (xr : Fin 768 → EReal) (wf : (⟨2, ![768, 256]⟩ : Shape).Idx → EReal)
    (b : (⟨3, ![1, 16, 16]⟩ : Shape).Idx → EReal) : Fin 16 → Fin 16 → EReal :=
  msq (msq (msq (msq (start xr wf b))))

/-- The whole result for `R` rows: entry `(n, i, j)` is entry `(i, j)` of row `n`'s matrix.  The kernel's
    block is this at `R = 512`, the whole array at `R = 65536`. -/
def rows {R : Nat} (x : (⟨2, ![R, 768]⟩ : Shape).Idx → EReal) (wf : (⟨2, ![768, 256]⟩ : Shape).Idx → EReal)
    (b : (⟨3, ![1, 16, 16]⟩ : Shape).Idx → EReal) : (⟨3, ![R, 16, 16]⟩ : Shape).Idx → EReal :=
  fun y => rowMat (fun k => x (ix2 (y 0) k)) wf b (y 1) (y 2)

theorem rows_ix3 {R : Nat} (x : (⟨2, ![R, 768]⟩ : Shape).Idx → EReal) (wf : (⟨2, ![768, 256]⟩ : Shape).Idx → EReal)
    (b : (⟨3, ![1, 16, 16]⟩ : Shape).Idx → EReal) (n : Fin R) (i j : Fin 16) :
    rows x wf b (ix3 n i j) = rowMat (fun k => x (ix2 n k)) wf b i j := rfl

/-- Two coordinates below 16 are equal as 32-bit words exactly when they are equal. -/
theorem word_eq_iff (i j : Fin 16) : BitVec.ofNat 32 i.val = BitVec.ofNat 32 j.val ↔ i = j := by
  constructor
  · intro h
    have h' := congrArg BitVec.toNat h
    simp only [BitVec.toNat_ofNat] at h'
    have hi := i.isLt; have hj := j.isLt
    exact Fin.ext (by omega)
  · rintro rfl; rfl

/-- Squaring respects entrywise equality: if two matrices agree entry by entry, so do their squares. -/
theorem msq_congr {M N : Fin 16 → Fin 16 → EReal} (h : ∀ i j, M i j = N i j) (i j : Fin 16) : msq M i j = msq N i j := by
  unfold msq
  exact Finset.sum_congr rfl fun k _ => by rw [h i k, h k j]

end Cert.MatPow

end
-- ==== Proof.KernelRow.lean ====
/-
  The kernel's stored value, read at one entry.

  The body stores one value into its 512 × 16 × 16 output block.  Read at row `r` and matrix entry `(i, j)` it is
  entry `(i, j)` of the sixteenth power of the start matrix of row `r` of the loaded 512 × 768 block: the first
  product contracts the row with the flattened weights (column `16·i + j` after the reshape to 16 × 16), the bias
  block and the identity are broadcast over the rows, and each of the four later products multiplies a row's matrix
  by itself (the row is the batch axis of the product).  The two narrowings to bf16 before the first product change
  nothing at the extended reals, and each product into a zero accumulator is the plain sum over the contracted
  index.
-/
import proofs.«155713_j29832842838337_1_alg».proof.Proof.Gen.KernelIdeal.Skeleton
import proofs.«155713_j29832842838337_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.MatPow

/-! ## The first product: a row against the flattened weights -/

theorem lhsP_0 (i : S512x256.Idx) (q : dot_S512x768_S768x256_S512x256_1_0_0_1_n_n.contr.Idx) :
    (dot_S512x768_S768x256_S512x256_1_0_0_1_n_n.lhsIdx i q 0).val = (i 0).val := by
  unfold DotDims.lhsIdx
  rw [dif_neg (show ¬(0 : Fin S512x768.rank) ∈ dot_S512x768_S768x256_S512x256_1_0_0_1_n_n.lhsBatch by decide), dif_pos (show (0 : Fin S512x768.rank) ∈ dot_S512x768_S768x256_S512x256_1_0_0_1_n_n.lhsNonContracting by decide)]
  rfl
theorem lhsP_1 (i : S512x256.Idx) (q : dot_S512x768_S768x256_S512x256_1_0_0_1_n_n.contr.Idx) :
    (dot_S512x768_S768x256_S512x256_1_0_0_1_n_n.lhsIdx i q 1).val = (q ⟨0, by decide⟩).val :=
  dot_S512x768_S768x256_S512x256_1_0_0_1_n_n.lhsIdx_val_of_single rfl i q
theorem rhsP_0 (i : S512x256.Idx) (q : dot_S512x768_S768x256_S512x256_1_0_0_1_n_n.contr.Idx) :
    (dot_S512x768_S768x256_S512x256_1_0_0_1_n_n.rhsIdx i q 0).val = (q ⟨0, by decide⟩).val :=
  dot_S512x768_S768x256_S512x256_1_0_0_1_n_n.rhsIdx_val_of_single rfl i q
theorem rhsP_1 (i : S512x256.Idx) (q : dot_S512x768_S768x256_S512x256_1_0_0_1_n_n.contr.Idx) :
    (dot_S512x768_S768x256_S512x256_1_0_0_1_n_n.rhsIdx i q 1).val = (i 1).val := by
  unfold DotDims.rhsIdx
  rw [dif_neg (show ¬(1 : Fin S768x256.rank) ∈ dot_S512x768_S768x256_S512x256_1_0_0_1_n_n.rhsBatch by decide), dif_pos (show (1 : Fin S768x256.rank) ∈ dot_S512x768_S768x256_S512x256_1_0_0_1_n_n.rhsNonContracting by decide)]
  rfl

/-- Entry `(r, c)` of the first product is the sum over `k` of row `r` at `k` times column `c` at `k`. -/
theorem proj_apply (a : FVec Ideal S512x768 .bf16) (w : FVec Ideal S768x256 .bf16) (r : Fin 512) (c : Fin 256) :
    matmul dot_S512x768_S768x256_S512x256_1_0_0_1_n_n none a w (constant S512x256 .f32 0x00000000#32) (ix2 r c)
      = ∑ k : Fin 768, a (ix2 r k) * w (ix2 k c) := by
  simp only [matmul]
  rw [Ideal.matmul_constant_zero_apply, ← Equiv.sum_comp (contrEquiv1 dot_S512x768_S768x256_S512x256_1_0_0_1_n_n 768 rfl rfl).symm]
  refine Finset.sum_congr rfl fun k _ => ?_
  have hk := contrEquiv1_symm_val dot_S512x768_S768x256_S512x256_1_0_0_1_n_n 768 rfl rfl k
  have el : dot_S512x768_S768x256_S512x256_1_0_0_1_n_n.lhsIdx (ix2 r c) ((contrEquiv1 dot_S512x768_S768x256_S512x256_1_0_0_1_n_n 768 rfl rfl).symm k) = ix2 r k := funext fun a => Fin.ext (by
    match a with
    | ⟨0, _⟩ => exact lhsP_0 _ _
    | ⟨1, _⟩ => exact (lhsP_1 _ _).trans hk)
  have er : dot_S512x768_S768x256_S512x256_1_0_0_1_n_n.rhsIdx (ix2 r c) ((contrEquiv1 dot_S512x768_S768x256_S512x256_1_0_0_1_n_n 768 rfl rfl).symm k) = ix2 k c := funext fun a => Fin.ext (by
    match a with
    | ⟨0, _⟩ => exact (rhsP_0 _ _).trans hk
    | ⟨1, _⟩ => exact rhsP_1 _ _)
  rw [el, er]

/-! ## A later product: each row's matrix times itself -/

theorem lhsS_0 (i : S512x16x16.Idx) (q : dot_S512x16x16_S512x16x16_S512x16x16_2_1_1_2_0_0.contr.Idx) :
    (dot_S512x16x16_S512x16x16_S512x16x16_2_1_1_2_0_0.lhsIdx i q 0).val = (i 0).val := by
  unfold DotDims.lhsIdx
  rw [dif_pos (show (0 : Fin S512x16x16.rank) ∈ dot_S512x16x16_S512x16x16_S512x16x16_2_1_1_2_0_0.lhsBatch by decide)]
  rfl
theorem lhsS_1 (i : S512x16x16.Idx) (q : dot_S512x16x16_S512x16x16_S512x16x16_2_1_1_2_0_0.contr.Idx) :
    (dot_S512x16x16_S512x16x16_S512x16x16_2_1_1_2_0_0.lhsIdx i q 1).val = (i 1).val := by
  unfold DotDims.lhsIdx
  rw [dif_neg (show ¬(1 : Fin S512x16x16.rank) ∈ dot_S512x16x16_S512x16x16_S512x16x16_2_1_1_2_0_0.lhsBatch by decide), dif_pos (show (1 : Fin S512x16x16.rank) ∈ dot_S512x16x16_S512x16x16_S512x16x16_2_1_1_2_0_0.lhsNonContracting by decide)]
  rfl
theorem lhsS_2 (i : S512x16x16.Idx) (q : dot_S512x16x16_S512x16x16_S512x16x16_2_1_1_2_0_0.contr.Idx) :
    (dot_S512x16x16_S512x16x16_S512x16x16_2_1_1_2_0_0.lhsIdx i q 2).val = (q ⟨0, by decide⟩).val :=
  dot_S512x16x16_S512x16x16_S512x16x16_2_1_1_2_0_0.lhsIdx_val_of_single rfl i q
theorem rhsS_0 (i : S512x16x16.Idx) (q : dot_S512x16x16_S512x16x16_S512x16x16_2_1_1_2_0_0.contr.Idx) :
    (dot_S512x16x16_S512x16x16_S512x16x16_2_1_1_2_0_0.rhsIdx i q 0).val = (i 0).val := by
  unfold DotDims.rhsIdx
  rw [dif_pos (show (0 : Fin S512x16x16.rank) ∈ dot_S512x16x16_S512x16x16_S512x16x16_2_1_1_2_0_0.rhsBatch by decide)]
  rfl
theorem rhsS_1 (i : S512x16x16.Idx) (q : dot_S512x16x16_S512x16x16_S512x16x16_2_1_1_2_0_0.contr.Idx) :
    (dot_S512x16x16_S512x16x16_S512x16x16_2_1_1_2_0_0.rhsIdx i q 1).val = (q ⟨0, by decide⟩).val :=
  dot_S512x16x16_S512x16x16_S512x16x16_2_1_1_2_0_0.rhsIdx_val_of_single rfl i q
theorem rhsS_2 (i : S512x16x16.Idx) (q : dot_S512x16x16_S512x16x16_S512x16x16_2_1_1_2_0_0.contr.Idx) :
    (dot_S512x16x16_S512x16x16_S512x16x16_2_1_1_2_0_0.rhsIdx i q 2).val = (i 2).val := by
  unfold DotDims.rhsIdx
  rw [dif_neg (show ¬(2 : Fin S512x16x16.rank) ∈ dot_S512x16x16_S512x16x16_S512x16x16_2_1_1_2_0_0.rhsBatch by decide), dif_pos (show (2 : Fin S512x16x16.rank) ∈ dot_S512x16x16_S512x16x16_S512x16x16_2_1_1_2_0_0.rhsNonContracting by decide)]
  rfl

/-- The batched product of a block with itself, into zero: if the block's row `r` is the matrix `Q r`, entry by
    entry, the product's row `r` is the square of `Q r`. -/
theorem sq_apply (M : FVec Ideal S512x16x16 .f32) (Q : Fin 512 → Fin 16 → Fin 16 → EReal)
    (h : ∀ r i j, M (ix3 r i j) = Q r i j) (r : Fin 512) (i j : Fin 16) :
    matmul dot_S512x16x16_S512x16x16_S512x16x16_2_1_1_2_0_0 (some .fp32) M M (constant S512x16x16 .f32 0x00000000#32) (ix3 r i j) = msq (Q r) i j := by
  simp only [matmul]
  rw [Ideal.matmul_constant_zero_apply, ← Equiv.sum_comp (contrEquiv1 dot_S512x16x16_S512x16x16_S512x16x16_2_1_1_2_0_0 16 rfl rfl).symm]
  unfold msq
  refine Finset.sum_congr rfl fun k _ => ?_
  have hk := contrEquiv1_symm_val dot_S512x16x16_S512x16x16_S512x16x16_2_1_1_2_0_0 16 rfl rfl k
  have el : dot_S512x16x16_S512x16x16_S512x16x16_2_1_1_2_0_0.lhsIdx (ix3 r i j) ((contrEquiv1 dot_S512x16x16_S512x16x16_S512x16x16_2_1_1_2_0_0 16 rfl rfl).symm k) = ix3 r i k := funext fun a => Fin.ext (by
    match a with
    | ⟨0, _⟩ => exact lhsS_0 _ _
    | ⟨1, _⟩ => exact lhsS_1 _ _
    | ⟨2, _⟩ => exact (lhsS_2 _ _).trans hk)
  have er : dot_S512x16x16_S512x16x16_S512x16x16_2_1_1_2_0_0.rhsIdx (ix3 r i j) ((contrEquiv1 dot_S512x16x16_S512x16x16_S512x16x16_2_1_1_2_0_0 16 rfl rfl).symm k) = ix3 r k j := funext fun a => Fin.ext (by
    match a with
    | ⟨0, _⟩ => exact rhsS_0 _ _
    | ⟨1, _⟩ => exact (rhsS_1 _ _).trans hk
    | ⟨2, _⟩ => exact rhsS_2 _ _)
  rw [el, er, h r i k, h r k j]

/-! ## The layout steps and the identity -/

/-- The 512 × 256 product viewed as 512 × 16 × 16: entry `(r, i, j)` is column `16·i + j` of row `r`. -/
theorem unflatten_apply (v : FVec Ideal S512x256 .f32) (r : Fin 512) (i j : Fin 16) :
    shapeCast S512x16x16 v shapeCasts_S512x256_S512x16x16 (ix3 r i j) = v (ix2 r (col i j)) := by
  refine shapeCast_apply v shapeCasts_S512x256_S512x16x16 (ix3 r i j) (ix2 r (col i j)) ?_
  rewrite [Shape.rowMajor_val_two, Shape.rowMajor_val_three]
  show r.val * 256 + (i.val * 16 + j.val) = (r.val * 16 + i.val) * 16 + j.val
  omega

/-- A 1 × 16 × 16 block broadcast over the 512 rows reads its own entry `(0, i, j)` at every row. -/
theorem overRows_apply (b : FVec Ideal S1x16x16 .f32) (r : Fin 512) (i j : Fin 16) :
    broadcastTo S512x16x16 b broadcasts_S1x16x16_S512x16x16 (ix3 r i j) = b (ix3 (0 : Fin 1) i j) := by
  refine broadcastTo_apply b broadcasts_S1x16x16_S512x16x16 (ix3 r i j) (ix3 (0 : Fin 1) i j) (fun a => ?_)
  match a with
  | ⟨0, _⟩ => show (0 : ℕ) = if (1 : Nat) = 1 then 0 else r.val; rw [if_pos rfl]
  | ⟨1, _⟩ => show i.val = if (16 : Nat) = 1 then 0 else i.val; rw [if_neg (by decide)]
  | ⟨2, _⟩ => show j.val = if (16 : Nat) = 1 then 0 else j.val; rw [if_neg (by decide)]

/-- A 16 × 16 value given a leading unit axis reads the same entry. -/
theorem addUnit_apply (v : FVec Ideal S16x16 .f32) (i j : Fin 16) :
    shapeCast S1x16x16 v shapeCasts_S16x16_S1x16x16 (ix3 (0 : Fin 1) i j) = v (ix2 i j) := by
  refine shapeCast_apply v shapeCasts_S16x16_S1x16x16 (ix3 (0 : Fin 1) i j) (ix2 i j) ?_
  rewrite [Shape.rowMajor_val_two, Shape.rowMajor_val_three]
  show i.val * 16 + j.val = ((0 : ℕ) * 16 + i.val) * 16 + j.val
  omega

/-- The identity the body builds — one where the row coordinate equals the column coordinate, zero elsewhere. -/
theorem eye_apply (i j : Fin 16) :
    (select (cmpi .eq (iota .tc S16x16 32 [0] iota_S16x16_d0_w32) (iota .tc S16x16 32 [1] iota_S16x16_d1_w32))
      (broadcast S16x16 (Scalar.ofBits (F := Ideal) .f32 0x3F800000#32))
      (broadcast S16x16 (Scalar.ofBits (F := Ideal) .f32 0x00000000#32)) : FVec Ideal S16x16 .f32) (ix2 i j) = eye i j := by
  rw [select_apply, broadcast_apply, broadcast_apply]
  show Scalar.select (IntOp.cmpi .eq (iota .tc S16x16 32 [0] iota_S16x16_d0_w32 (ix2 i j)) (iota .tc S16x16 32 [1] iota_S16x16_d1_w32 (ix2 i j))) _ _ = _
  rw [iota_single_apply, iota_single_apply]
  show Scalar.select (IntOp.cmpi .eq (BitVec.ofNat 32 i.val) (BitVec.ofNat 32 j.val)) (Ideal.ofBits .f32 0x3F800000#32) (Ideal.ofBits .f32 0x00000000#32) = _
  unfold eye IntOp.cmpi
  by_cases h : i = j
  · subst h
    rw [if_pos rfl]
    simp only [beq_self_eq_true, BitVec.ofBool_true]
    exact (select_one _ _).trans (IdealRules.sign_bit.ideal_onePat .f32)
  · rw [if_neg h]
    have hne : (BitVec.ofNat 32 i.val == BitVec.ofNat 32 j.val) = false := by
      rw [beq_eq_false_iff_ne]; exact fun e => h ((word_eq_iff i j).mp e)
    simp only [hne, BitVec.ofBool_false]
    exact (select_zero _ _).trans Ideal.ofBits_zero_f32

/-! ## The start matrix and the stored value -/

/-- The value the four squarings start from, as the body computes it from its three loads. -/
def startv (x0 : Vec Ideal S512x768 .f32) (x1 : Vec Ideal S768x256 .f32) (x2 : Vec Ideal S1x16x16 .f32) : FVec Ideal S512x16x16 .f32 :=
  addf (mulf (addf (shapeCast S512x16x16 (matmul dot_S512x768_S768x256_S512x256_1_0_0_1_n_n none (truncf .bf16 x0 bitsLt_bf16_f32)
      (truncf .bf16 (shapeCast S768x256 x1 shapeCasts_S768x256_S768x256) bitsLt_bf16_f32) (constant S512x256 .f32 0x00000000#32)) shapeCasts_S512x256_S512x16x16)
      (broadcastTo S512x16x16 x2 broadcasts_S1x16x16_S512x16x16))
    (broadcast S512x16x16 (Scalar.ofBits (F := Ideal) .f32 0x3D800000#32)))
    (broadcastTo S512x16x16 (shapeCast S1x16x16 (select (cmpi .eq (iota .tc S16x16 32 [0] iota_S16x16_d0_w32) (iota .tc S16x16 32 [1] iota_S16x16_d1_w32))
      (broadcast S16x16 (Scalar.ofBits (F := Ideal) .f32 0x3F800000#32)) (broadcast S16x16 (Scalar.ofBits (F := Ideal) .f32 0x00000000#32))) shapeCasts_S16x16_S1x16x16)
      broadcasts_S1x16x16_S512x16x16)

/-- Row `r` of the start value is the start matrix of row `r` of the loaded block. -/
theorem startv_apply (x0 : Vec Ideal S512x768 .f32) (x1 : Vec Ideal S768x256 .f32) (x2 : Vec Ideal S1x16x16 .f32)
    (r : Fin 512) (i j : Fin 16) :
    startv x0 x1 x2 (ix3 r i j) = start (fun k => x0 (ix2 r k)) x1 x2 i j := by
  unfold startv start
  rw [addf_apply, mulf_apply, addf_apply, unflatten_apply, proj_apply, overRows_apply, overRows_apply, addUnit_apply, eye_apply,
    broadcast_apply, shapeCast_self]
  rfl

/-- One squaring of a whole block. -/
def sqv (M : FVec Ideal S512x16x16 .f32) : FVec Ideal S512x16x16 .f32 :=
  matmul dot_S512x16x16_S512x16x16_S512x16x16_2_1_1_2_0_0 (some .fp32) M M (constant S512x16x16 .f32 0x00000000#32)

/-- The stored value is the start value squared four times. -/
theorem pay_eq (x0 : Vec Ideal S512x768 .f32) (x1 : Vec Ideal S768x256 .f32) (x2 : Vec Ideal S1x16x16 .f32) :
    k0_pay1 (F := Ideal) x0 x1 x2 = sqv (sqv (sqv (sqv (startv x0 x1 x2)))) := rfl

/-- THE STORED VALUE AT AN ENTRY: row `r`, entry `(i, j)`, is the row function of the loaded blocks. -/
theorem pay_apply (x0 : Vec Ideal S512x768 .f32) (x1 : Vec Ideal S768x256 .f32) (x2 : Vec Ideal S1x16x16 .f32)
    (r : Fin 512) (i j : Fin 16) :
    k0_pay1 (F := Ideal) x0 x1 x2 (ix3 r i j) = rowMat (fun k => x0 (ix2 r k)) x1 x2 i j := by
  rw [pay_eq]
  unfold rowMat sqv
  exact sq_apply _ (fun r => msq (msq (msq (start (fun k => x0 (ix2 r k)) x1 x2))))
    (fun r i j => sq_apply _ (fun r => msq (msq (start (fun k => x0 (ix2 r k)) x1 x2)))
      (fun r i j => sq_apply _ (fun r => msq (start (fun k => x0 (ix2 r k)) x1 x2))
        (fun r i j => sq_apply _ (fun r => start (fun k => x0 (ix2 r k)) x1 x2)
          (fun r i j => startv_apply x0 x1 x2 r i j) r i j) r i j) r i j) r i j

/-- The stored block as a whole is the spec's 512-row function of the loaded blocks. -/
theorem pay_rows (x0 : Vec Ideal S512x768 .f32) (x1 : Vec Ideal S768x256 .f32) (x2 : Vec Ideal S1x16x16 .f32) :
    k0_pay1 (F := Ideal) x0 x1 x2 = rows (R := 512) x0 x1 x2 := by
  funext y
  obtain ⟨r, i, j, rfl⟩ : ∃ (r : Fin 512) (i j : Fin 16), y = ix3 r i j := ⟨y 0, y 1, y 2, eq_ix3 y⟩
  exact pay_apply x0 x1 x2 r i j

end Cert.KernelIdeal.RowValue

end
-- ==== Proof.KernelArray.lean ====
/-
  From the kernel's blocks to its result array.

  Grid point `t` (of 128) reads rows `512·t … 512·t + 511` of `x`, the whole flattened weights and the whole bias
  block, and writes rows `512·t … 512·t + 511` of the result.  Since a result row depends on `x` through the same
  row only, what point `t` writes is block `t` of ONE function of the arrays: the spec's `rows` over all 65536
  rows.  The 128 blocks tile the result (row `n` lies in block `n / 512`), so after the run the result array is
  that function.  The flattened weights are the reshape of `W` that @main performs before the region.
-/
import proofs.«155713_j29832842838337_1_alg».proof.Proof.Gen.KernelIdeal.Value
import proofs.«155713_j29832842838337_1_alg».proof.Proof.KernelRow
import Idealize.ShloMosaic.Lib.StableHlo.Run

set_option maxRecDepth 16384

noncomputable section

namespace Cert.KernelIdeal.ArrValue

open Cert.KernelIdeal Cert.KernelIdeal.Gen Cert.KernelIdeal.RowValue Cert.MatPow
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The three arrays the region reads, at their literal types. -/
abbrev xarr (c : Dev nD) : Vec Ideal S65536x768 .f32 := V m c main_arg0
abbrev warr (c : Dev nD) : Vec Ideal S768x256 .f32 := V m c main_v0
abbrev barr (c : Dev nD) : Vec Ideal S1x16x16 .f32 := V m c main_arg2

/-- The blocks point `t` reads, at their literal types. -/
abbrev xblk (c : Dev nD) (t : Fin cfg0.N) : Vec Ideal S512x768 .f32 := iblk m c 0 t
abbrev wblk (c : Dev nD) (t : Fin cfg0.N) : Vec Ideal S768x256 .f32 := iblk m c 1 t
abbrev bblk (c : Dev nD) (t : Fin cfg0.N) : Vec Ideal S1x16x16 .f32 := iblk m c 2 t

/-- What the result array ends holding: every row's matrix, for all 65536 rows. -/
def result (c : Dev nD) : Vec Ideal S65536x16x16 .f32 :=
  rows (R := 65536) (xarr m c) (warr m c) (barr m c)

/-- The block indices, decided over the 128 points: `x`'s row block moves with the result's, which is the point
    itself; every other block index is zero. -/
theorem idx_facts : ∀ t : Fin cfg0.N,
    win0_0.index t (0 : Fin 2) = win0_3.index t (0 : Fin 3) ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The weights' block is the whole flattened array at every point. -/
theorem wblk_eq (c : Dev nD) (t : Fin cfg0.N) : wblk m c t = warr m c := by
  obtain ⟨-, -, e0, e1, -⟩ := idx_facts t
  funext y
  show V m c main_v0 (((cfg0.win 1).blk t).view.emb y) = V m c main_v0 y
  refine congrArg _ (funext fun a => Fin.ext ?_)
  match a with
  | ⟨0, _⟩ => show win0_1.index t (0 : Fin 2) * 768 + 1 * (y 0).val = (y 0).val; omega
  | ⟨1, _⟩ => show win0_1.index t (1 : Fin 2) * 256 + 1 * (y 1).val = (y 1).val; omega

/-- The bias block is the whole bias array at every point. -/
theorem bblk_eq (c : Dev nD) (t : Fin cfg0.N) : bblk m c t = barr m c := by
  obtain ⟨-, -, -, -, e0, e1, e2, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 3) * 1 + 1 * (y 0).val = (y 0).val; omega
  | ⟨1, _⟩ => show win0_2.index t (1 : Fin 3) * 16 + 1 * (y 1).val = (y 1).val; omega
  | ⟨2, _⟩ => show win0_2.index t (2 : Fin 3) * 16 + 1 * (y 2).val = (y 2).val; omega

/-- WHAT POINT `t` WRITES BACK is block `t` of `result`. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero hz3]
  simp only [View.ld_unit_zero (S := S512x768) hz2, View.ld_unit_zero (S := S768x256) hz2, View.ld_unit_zero (S := S1x16x16) hz3]
  obtain ⟨e0, e1, -, -, -, -, -, -, e8, e9⟩ := idx_facts t
  funext y
  obtain ⟨r, i, j, rfl⟩ : ∃ (r : Fin 512) (i j : Fin 16), y = ix3 r i j := ⟨y 0, y 1, y 2, eq_ix3 y⟩
  show k0_pay1 (F := Ideal) (xblk m c t) (wblk m c t) (bblk m c t) (ix3 r i j)
    = result m c (((cfg0.win 3).blk t).view.emb (ix3 r i j))
  refine (pay_apply (xblk m c t) (wblk m c t) (bblk m c t) r i j).trans ?_
  rw [wblk_eq, bblk_eq]
  unfold result rows
  have hi : ((cfg0.win 3).blk t).view.emb (ix3 r i j) 1 = i := Fin.ext (by
    show win0_3.index t (1 : Fin 3) * 16 + 1 * i.val = i.val; omega)
  have hj : ((cfg0.win 3).blk t).view.emb (ix3 r i j) 2 = j := Fin.ext (by
    show win0_3.index t (2 : Fin 3) * 16 + 1 * j.val = j.val; omega)
  have hx : (fun k : Fin 768 => xblk m c t (ix2 r k)) = fun k => xarr m c (ix2 (((cfg0.win 3).blk t).view.emb (ix3 r i j) 0) k) := by
    funext k
    show V m c main_arg0 (((cfg0.win 0).blk t).view.emb (ix2 r k)) = V m c main_arg0 (ix2 (((cfg0.win 3).blk t).view.emb (ix3 r i j) 0) k)
    refine congrArg _ (funext fun a => Fin.ext ?_)
    match a with
    | ⟨0, _⟩ => show win0_0.index t (0 : Fin 2) * 512 + 1 * r.val = win0_3.index t (0 : Fin 3) * 512 + 1 * r.val; omega
    | ⟨1, _⟩ => show win0_0.index t (1 : Fin 2) * 768 + 1 * k.val = k.val; omega
  show rowMat (fun k : Fin 768 => xblk m c t (ix2 r k)) (warr m c) (barr m c) i j = rowMat _ (warr m c) (barr m c) _ _
  rw [hx, hi, hj]

/-- An index of the result is in point `t`'s block iff each coordinate is in the block's range on its axis. -/
theorem mem_blk (t : Fin cfg0.N) (i : S65536x16x16.Idx) :
    i ∈ ((cfg0.win 3).blk t).view.set ↔ ∀ a : Fin 3, win0_3.index t a * S512x16x16.size a ≤ (i a).val ∧ (i a).val < win0_3.index t a * S512x16x16.size a + S512x16x16.size a := by
  show i ∈ ((View.whole main_v1).slice (win0_3.rect t)).set ↔ _
  rw [View.set_slice_whole, Rect.mem_set_unit]
  exact Iff.rfl

/-- Every index of the result lies in some point's block: row `n` in block `n / 512`. -/
theorem cover (i : S65536x16x16.Idx) :
    ∃ t : Fin cfg0.N, (cfg0.win 3).flush t = true ∧ i ∈ ((cfg0.win 3).blk t).view.set := by
  have h0 : (i 0).val < 65536 := (i 0).isLt
  have h1 : (i 1).val < 16 := (i 1).isLt
  have h2 : (i 2).val < 16 := (i 2).isLt
  have hN : (i 0).val / 512 < cfg0.N := by rw [show cfg0.N = 128 from N_0]; omega
  obtain ⟨-, -, -, -, -, -, -, e0, e1, e2⟩ := idx_facts ⟨(i 0).val / 512, hN⟩
  have e0' : win0_3.index ⟨(i 0).val / 512, hN⟩ (0 : Fin 3) = (i 0).val / 512 := e0
  refine ⟨⟨(i 0).val / 512, hN⟩, flush0_3 _, ?_⟩
  rw [mem_blk]
  intro a
  match a with
  | ⟨0, _⟩ => show win0_3.index ⟨(i 0).val / 512, hN⟩ (0 : Fin 3) * 512 ≤ (i 0).val ∧ (i 0).val < win0_3.index ⟨(i 0).val / 512, hN⟩ (0 : Fin 3) * 512 + 512; omega
  | ⟨1, _⟩ => show win0_3.index ⟨(i 0).val / 512, hN⟩ (1 : Fin 3) * 16 ≤ (i 1).val ∧ (i 1).val < win0_3.index ⟨(i 0).val / 512, hN⟩ (1 : Fin 3) * 16 + 16; omega
  | ⟨2, _⟩ => show win0_3.index ⟨(i 0).val / 512, hN⟩ (2 : Fin 3) * 16 ≤ (i 2).val ∧ (i 2).val < win0_3.index ⟨(i 0).val / 512, hN⟩ (2 : Fin 3) * 16 + 16; omega

/-- THE RESULT ARRAY after the run is `result`. -/
theorem final (c : Dev nD) : (dats m 0 c).arrAt 3 cfg0.N = result m c :=
  (dats m 0 c).arrAt_eq_of_cover 3 (result m c) (fun t _ => flushed_eq m c t) cover

/-- The flattened weights the region finds are the reshape of the launched `W`. -/
theorem warr_eq (c : Dev nD) :
    warr m c = shapeCast S768x256 (m ((c : Thread nD τ).loc main_arg1)) shapeCasts_S768x16x16_S768x256 := by
  show (V m c main_v0 : S768x256.Idx → EReal) = _
  dsimp only [Gen.V, Gen.hostOps0]
  after_results
  rfl

/-- `result` over the launched arrays. -/
theorem result_eq (c : Dev nD) :
    result m c = rows (R := 65536) (m ((c : Thread nD τ).loc main_arg0))
      (shapeCast S768x256 (m ((c : Thread nD τ).loc main_arg1)) shapeCasts_S768x16x16_S768x256) (m ((c : Thread nD τ).loc main_arg2)) := by
  unfold result
  rw [warr_eq]
  show rows (R := 65536) (V m c main_arg0) _ (V m c main_arg2) = _
  rw [V_main_arg0, V_main_arg2]

/-- THE RUN, READ: every weakly fair execution ends with the result array at the spec's function of the launched
    arrays, the arguments unchanged. -/
theorem run : θ_run defs (onTc (τ := τ) (main (F := Ideal))) ⟨m, fun _ => 0, ρ⟩ fun r => ∀ c : Dev nD,
      r.2.mem ((c : Thread nD τ).loc main_v1) = rows (R := 65536) (m ((c : Thread nD τ).loc main_arg0))
        (shapeCast S768x256 (m ((c : Thread nD τ).loc main_arg1)) shapeCasts_S768x16x16_S768x256) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (result_eq m c)), (h c).2⟩)
    (Cert.KernelIdeal.Value.run_blocks m ρ)

end Cert.KernelIdeal.ArrValue

end
-- ==== Proof.RefRow.lean ====
/-
  The reference's result, read at one entry.

  The reference performs the same steps on the whole arrays: it contracts `x` with the flattened weights, views
  the 65536 × 256 product as 65536 × 16 × 16 (entry `(n, i, j)` is column `16·i + j` of row `n`), adds the bias
  broadcast over the rows, multiplies by the scale, adds the identity (a comparison of the two coordinate tables
  turned into 0 / 1), and multiplies each row's matrix by itself four times, the row being the batch axis.  Read
  at `(n, i, j)` stage by stage, the result is entry `(i, j)` of the spec's matrix for row `n`.
-/
import proofs.«155713_j29832842838337_1_alg».proof.Proof.Gen.ReferenceIdeal.Read
import proofs.«155713_j29832842838337_1_alg».proof.Proof.Spec

noncomputable section

open scoped BigOperators

namespace Cert.ReferenceIdeal.RowValue

open Cert.ReferenceIdeal Cert.ReferenceIdeal.Gen Cert.ReferenceIdeal.Read Cert.MatPow
open Idealize.ShloMosaic Idealize.ShloMosaic.ValueIdx

variable (x0 : (⟨S65536x768, .f32⟩ : BufTy).Contents (Elt Ideal)) (x1 : (⟨S768x16x16, .f32⟩ : BufTy).Contents (Elt Ideal))
  (x2 : (⟨S1x16x16, .f32⟩ : BufTy).Contents (Elt Ideal))

/-! ## Where each layout step reads -/

theorem unflatten_idx (n : Fin 65536) (i j : Fin 16) : idx_main_v2 (ix3 n i j) = ix2 n (col i j) :=
  funext fun a => Fin.ext (by
    have hi := i.isLt; have hj := j.isLt
    match a with
    | ⟨0, _⟩ => show ((n.val * 16 + i.val) * 16 + j.val) / 256 = n.val; omega
    | ⟨1, _⟩ => show ((n.val * 16 + i.val) * 16 + j.val) % 256 = i.val * 16 + j.val; omega)
theorem proj_lidx (n : Fin 65536) (c : Fin 256) (k : Fin 768) : lidx_main_v1 (ix2 n c) k = ix2 n k :=
  funext fun a => by match a with | ⟨0, _⟩ => rfl | ⟨1, _⟩ => rfl
theorem proj_ridx (n : Fin 65536) (c : Fin 256) (k : Fin 768) : ridx_main_v1 (ix2 n c) k = ix2 k c :=
  funext fun a => by match a with | ⟨0, _⟩ => rfl | ⟨1, _⟩ => rfl
theorem bias_idx (n : Fin 65536) (i j : Fin 16) : idx_main_v3 (ix3 n i j) = ix3 (0 : Fin 1) i j :=
  funext fun a => by match a with | ⟨0, _⟩ => rfl | ⟨1, _⟩ => rfl | ⟨2, _⟩ => rfl
theorem eyeRows_idx (n : Fin 65536) (i j : Fin 16) : idx_main_v14 (ix3 n i j) = ix3 (0 : Fin 1) i j :=
  funext fun a => by match a with | ⟨0, _⟩ => rfl | ⟨1, _⟩ => rfl | ⟨2, _⟩ => rfl
theorem eyeUnit_idx (i j : Fin 16) : idx_main_v13 (ix3 (0 : Fin 1) i j) = ix2 i j :=
  funext fun a => by match a with | ⟨0, _⟩ => rfl | ⟨1, _⟩ => rfl

/-- The identity the reference builds: the comparison of `i + 0` with `j` as words, turned into a number. -/
theorem eye_ref (i j : Fin 16) :
    FloatOps.uitofp (F := Ideal) .f32 (IntOp.cmpi .eq (IntOp.addi (BitVec.ofNat 32 i.val) 0#32) (BitVec.ofNat 32 j.val)) = eye i j := by
  show (((IntOp.cmpi .eq (IntOp.addi (BitVec.ofNat 32 i.val) 0#32) (BitVec.ofNat 32 j.val)).toNat : ℝ) : EReal) = eye i j
  unfold eye IntOp.cmpi IntOp.addi
  rw [BitVec.add_zero]
  by_cases h : i = j
  · subst h
    rw [if_pos rfl]
    simp
  · rw [if_neg h]
    have hne : (BitVec.ofNat 32 i.val == BitVec.ofNat 32 j.val) = false := by
      rw [beq_eq_false_iff_ne]; exact fun e => h ((word_eq_iff i j).mp e)
    simp [hne]

/-! ## The start matrix -/

/-- Row `n` of the value the four products start from is the start matrix of row `n` of `x`. -/
theorem start_ref (n : Fin 65536) (i j : Fin 16) :
    val_main_v15 (F := Ideal) x0 x1 x2 (ix3 n i j) = start (fun k => x0 (ix2 n k)) (val_main_v0 (F := Ideal) x1) x2 i j := by
  rw [val_main_v15_apply, val_main_v6_apply, val_main_v4_apply, val_main_v2_apply, val_main_v1_apply, val_main_v3_apply,
    val_main_v5_apply, val_main_cst_apply, val_main_v14_apply, val_main_v13_apply, val_main_v12_apply, val_main_v11_apply,
    val_main_v10_apply, val_main_v7_apply, val_main_v9_apply, val_main_c_apply, val_main_v8_apply,
    unflatten_idx, bias_idx, eyeRows_idx, eyeUnit_idx]
  simp only [proj_lidx, proj_ridx]
  show ((∑ k : Fin 768, x0 (ix2 n k) * val_main_v0 (F := Ideal) x1 (ix2 k (col i j))) + x2 (ix3 (0 : Fin 1) i j)) * Ideal.ofBits .f32 0x3D800000#32
      + FloatOps.uitofp (F := Ideal) .f32 (IntOp.cmpi .eq (IntOp.addi (BitVec.ofNat 32 i.val) 0#32) (BitVec.ofNat 32 j.val)) = _
  rw [eye_ref]
  rfl

/-! ## The four products -/

/-- Two rank-3 indices with equal coordinates are equal. -/
theorem idx_ext3 {d : Fin 3 → ℕ} {y z : (a : Fin 3) → Fin (d a)} (h0 : (y 0 : ℕ) = z 0) (h1 : (y 1 : ℕ) = z 1)
    (h2 : (y 2 : ℕ) = z 2) : y = z :=
  funext fun a => Fin.ext <| match a with | ⟨0, _⟩ => h0 | ⟨1, _⟩ => h1 | ⟨2, _⟩ => h2

/-- ONE SQUARING STAGE.  If a value `B` is, entry by entry, the sum over `k` of `A` at a left index times `A` at a
    right index, and at `(n, i, j)` those indices are `(n, i, k)` and `(n, k, j)`, then row `n` of `B` is the square of
    row `n` of `A`.  Each of the reference's four batched products is read this way. -/
theorem square_stage {A B : S65536x16x16.Idx → EReal} {l r : S65536x16x16.Idx → Fin 16 → S65536x16x16.Idx}
    (hB : ∀ y, B y = ∑ k : Fin 16, A (l y k) * A (r y k))
    (hl : ∀ (n : Fin 65536) (i j k : Fin 16), l (ix3 n i j) k = ix3 n i k)
    (hr : ∀ (n : Fin 65536) (i j k : Fin 16), r (ix3 n i j) k = ix3 n k j)
    (n : Fin 65536) (i j : Fin 16) : B (ix3 n i j) = msq (fun i j => A (ix3 n i j)) i j := by
  rw [hB]
  unfold msq
  exact Finset.sum_congr rfl fun k _ => by rw [hl, hr]

/-- THE REFERENCE'S RESULT AT AN ENTRY: row `n`, entry `(i, j)`, is the row function of the arrays — the last
    product's row is the square of the third's, and so on down to the start matrix. -/
theorem ref_apply (n : Fin 65536) (i j : Fin 16) :
    val_main_v19 (F := Ideal) x0 x1 x2 (ix3 n i j) = rowMat (fun k => x0 (ix2 n k)) (val_main_v0 (F := Ideal) x1) x2 i j := by
  unfold rowMat
  refine (square_stage (val_main_v19_apply x0 x1 x2) (fun _ _ _ _ => idx_ext3 rfl rfl rfl)
    (fun _ _ _ _ => idx_ext3 rfl rfl rfl) n i j).trans (msq_congr (fun i j => ?_) i j)
  refine (square_stage (val_main_v18_apply x0 x1 x2) (fun _ _ _ _ => idx_ext3 rfl rfl rfl)
    (fun _ _ _ _ => idx_ext3 rfl rfl rfl) n i j).trans (msq_congr (fun i j => ?_) i j)
  refine (square_stage (val_main_v17_apply x0 x1 x2) (fun _ _ _ _ => idx_ext3 rfl rfl rfl)
    (fun _ _ _ _ => idx_ext3 rfl rfl rfl) n i j).trans (msq_congr (fun i j => ?_) i j)
  refine (square_stage (val_main_v16_apply x0 x1 x2) (fun _ _ _ _ => idx_ext3 rfl rfl rfl)
    (fun _ _ _ _ => idx_ext3 rfl rfl rfl) n i j).trans (msq_congr (fun i j => ?_) i j)
  exact start_ref x0 x1 x2 n i j

/-- The reference's result as a whole is the spec's 65536-row function of the arrays. -/
theorem ref_rows : val_main_v19 (F := Ideal) x0 x1 x2 = rows (R := 65536) x0 (val_main_v0 (F := Ideal) x1) x2 := by
  funext y
  obtain ⟨n, i, j, rfl⟩ : ∃ (n : Fin 65536) (i j : Fin 16), y = ix3 n i j := ⟨y 0, y 1, y 2, eq_ix3 y⟩
  exact ref_apply x0 x1 x2 n i j

end Cert.ReferenceIdeal.RowValue

end
-- ==== Proof.lean ====
/-
  The kernel and its reference compute, for each of 65536 rows, the sixteenth power of a 16 × 16 matrix built from
  the row: `A₀ = (x_n · W_flat + b) · 2⁻⁴ + I`, then `A₀ ↦ A₀²` four times (a scaling-and-squaring step of a
  matrix exponential).  The kernel does this block by block, 512 rows per grid point; the reference on the whole
  arrays.  Over the extended reals both are the same finite sums and products of the same inputs, row by row:

    * the first product contracts a row of `x` with the flattened weights; narrowing its operands to bf16 first
      changes nothing here, and a product into a zero accumulator is the plain sum over the contracted index;
    * the bias and the identity are broadcast over the rows; the kernel selects 1 or 0 on equal coordinates, the
      reference converts the same comparison to a number: both are the identity matrix;
    * the scale is the same f32 word on both sides, so its value is never needed;
    * each later product multiplies a row's matrix by itself, the row being the batch axis on both sides.

  A result row depends on `x` only through the same row, so what grid point `t` writes is block `t` of one function of
  the arrays, and the 128 blocks tile the result.  No step uses a law that fails at the infinities, so the
  finiteness of the inputs is not used; the kernel's program is read at the extended reals as printed, with no
  rewrite to account for.

  Spec.lean states the row function; KernelRow.lean reads the kernel's stored value at an entry; KernelArray.lean
  goes from the blocks to the result array; RefRow.lean reads the reference's result at an entry.
-/
import proofs.«155713_j29832842838337_1_alg».proof.Defs
import proofs.«155713_j29832842838337_1_alg».proof.Proof.Gen.Kernel
import proofs.«155713_j29832842838337_1_alg».proof.Proof.Gen.Kernel.Skeleton
import proofs.«155713_j29832842838337_1_alg».proof.Proof.Gen.Kernel.Launch
import proofs.«155713_j29832842838337_1_alg».proof.Proof.Gen.Kernel.Points
import proofs.«155713_j29832842838337_1_alg».proof.Proof.Gen.Kernel.Frame
import proofs.«155713_j29832842838337_1_alg».proof.Proof.Gen.KernelIdeal
import proofs.«155713_j29832842838337_1_alg».proof.Proof.Gen.KernelIdeal.Skeleton
import proofs.«155713_j29832842838337_1_alg».proof.Proof.Gen.KernelIdeal.Launch
import proofs.«155713_j29832842838337_1_alg».proof.Proof.Gen.KernelIdeal.Points
import proofs.«155713_j29832842838337_1_alg».proof.Proof.Gen.KernelIdeal.Frame
import proofs.«155713_j29832842838337_1_alg».proof.Proof.Gen.ReferenceIdeal
import proofs.«155713_j29832842838337_1_alg».proof.Proof.Gen.Pre_finite_inputs
import proofs.«155713_j29832842838337_1_alg».proof.Proof.Gen.KernelIdeal.Value
import proofs.«155713_j29832842838337_1_alg».proof.Proof.Gen.ReferenceIdeal.Run
import proofs.«155713_j29832842838337_1_alg».proof.Proof.Gen.ReferenceIdeal.Read
import proofs.«155713_j29832842838337_1_alg».proof.Proof.KernelArray
import proofs.«155713_j29832842838337_1_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten to read the kernel at the extended reals. -/
theorem preserves : Cert.preserves_Kernel_KernelIdeal := trivial

/-- From memories that agree on `x`, `W` and `b`, both programs end with the result array at the same function of
    them: every row's start matrix squared four times. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RowValue.ref_rows, (hagree c).1, (hagree c).2.1, (hagree c).2.2]
  unfold Cert.ReferenceIdeal.Read.val_main_v0
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
